-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x16x2048 : Shape := ⟨4, ![32, 16, 16, 2048]⟩
abbrev S2048x2048 : Shape := ⟨2, ![2048, 2048]⟩
abbrev S2048 : Shape := ⟨1, ![2048]⟩
abbrev S_ : Shape := ⟨0, ![]⟩

class Facts : Prop where
  bcast_S_S32x16x16x2048 : S_.BroadcastsInDim S32x16x16x2048 (![] : Fin 0 → Fin S32x16x16x2048.rank)
  reducesTo_S32x16x16x2048_S_d0_1_2_3 : S32x16x16x2048.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048 .f32) (main_arg6 : FVec F S2048 .f32) (main_arg7 : FVec F S2048x2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S32x16x16x2048 .f32) (main_arg1 : FVec F S2048x2048 .f32) (main_arg2 : FVec F S2048 .f32) (main_arg3 : FVec F S2048x2048 .f32) (main_arg4 : FVec F S2048 .f32) (main_arg5 : FVec F S2048 .f32) (main_arg6 : FVec F S2048 .f32) (main_arg7 : FVec F S2048x2048 .f32) (main_arg8 : FVec F S2048 .f32) : IVec S_ 1 :=
  let main_v0 : FVec F S32x16x16x2048 .f32 := Host.absf main_arg0
  let main_cst : FVec F S_ .f32 := constant S_ .f32 0x7F800000#32
  let main_v1 : FVec F S32x16x16x2048 .f32 := broadcastInDim S32x16x16x2048 ![] bcast_S_S32x16x16x2048 main_cst
  let main_v2 : IVec S32x16x16x2048 1 := cmpf .olt main_v0 main_v1
  let main_c : IVec S_ 1 := constantI S_ 1 1#1
  let main_v3 : IVec S_ 1 := (fun x v => Host.reduce IntOp.andi x v reducesTo_S32x16x16x2048_S_d0_1_2_3 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S32x16x16x2048 : Shape := ⟨4, ![32, 16, 16, 2048]⟩
abbrev S2048x2048 : Shape := ⟨2, ![2048, 2048]⟩
abbrev S2048 : Shape := ⟨1, ![2048]⟩
abbrev S512x16x2048 : Shape := ⟨3, ![512, 16, 2048]⟩
abbrev S8x16x2048 : Shape := ⟨3, ![8, 16, 2048]⟩
abbrev S8x2048 : Shape := ⟨2, ![8, 2048]⟩
abbrev S1x2048 : Shape := ⟨2, ![1, 2048]⟩
abbrev S8x1x2048 : Shape := ⟨3, ![8, 1, 2048]⟩
abbrev S128x2048 : Shape := ⟨2, ![128, 2048]⟩
abbrev S1x1x2048 : Shape := ⟨3, ![1, 1, 2048]⟩

abbrev nBuf : Space → Nat
  | .hbm => 15
  | .vmem => 12
  | .smem => 0
  | _ => 0

abbrev bufTy : (tb : Table) → Fin (tcTables nBuf tb) → BufTy
  | .hbm, ⟨0, _⟩ => ⟨S32x16x16x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S512x16x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S512x16x2048, .f32⟩
  | .hbm, ⟨14, _⟩ => ⟨S32x16x16x2048, .f32⟩
  | .local _ .vmem, ⟨0, _⟩ => ⟨S8x16x2048, .f32⟩
  | .local _ .vmem, ⟨1, _⟩ => ⟨S8x16x2048, .f32⟩
  | .local _ .vmem, ⟨2, _⟩ => ⟨S2048x2048, .bf16⟩
  | .local _ .vmem, ⟨3, _⟩ => ⟨S2048, .f32⟩
  | .local _ .vmem, ⟨4, _⟩ => ⟨S2048x2048, .bf16⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S2048x2048, .bf16⟩
  | .local _ .vmem, ⟨9, _⟩ => ⟨S2048, .f32⟩
  | .local _ .vmem, ⟨10, _⟩ => ⟨S8x16x2048, .f32⟩
  | .local _ .vmem, ⟨11, _⟩ => ⟨S8x16x2048, .f32⟩
  | _, _ => ⟨S32x16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x16x16x2048_S512x16x2048 : S32x16x16x2048.ShapeCasts S512x16x2048
  bitsLt_bf16_f32 : FTy.bits .bf16 < FTy.bits .f32
  inb_S8x16x2048_S8x16x2048_0_0_0 : ∀ a, (![0, 0, 0] : Fin 3 → Nat) a + S8x16x2048.size a ≤ S8x16x2048.size a
  h_S8x16x2048 : 0 < S8x16x2048.numel
  shapeCasts_S8x16x2048_S8x16x2048 : S8x16x2048.ShapeCasts S8x16x2048
  reduces_S8x16x2048_S8x2048 : S8x16x2048.Reduces [1] S8x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S8x2048 : S1x2048.Broadcasts S8x2048
  shapeCasts_S8x2048_S8x1x2048 : S8x2048.ShapeCasts S8x1x2048
  broadcasts_S8x1x2048_S8x16x2048 : S8x1x2048.Broadcasts S8x16x2048
  shapeCasts_S8x16x2048_S128x2048 : S8x16x2048.ShapeCasts S128x2048
  broadcasts_S1x2048_S128x2048 : S1x2048.Broadcasts S128x2048
  shapeCasts_S128x2048_S8x16x2048 : S128x2048.ShapeCasts S8x16x2048
  shapeCasts_S2048_S1x1x2048 : S2048.ShapeCasts S1x1x2048
  broadcasts_S1x1x2048_S8x16x2048 : S1x1x2048.Broadcasts S8x16x2048
  shapeCasts_S512x16x2048_S32x16x16x2048 : S512x16x2048.ShapeCasts S32x16x16x2048
  dot_S8x2048_S2048x2048_S8x2048_1_1_0_0_n_n_wf : DotDims.WF S8x2048 S2048x2048 S8x2048 [1] [1] [0] [0] [] []
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x2048.size a ≤ S512x16x2048.size a
  hwx0_0 : ∀ i : grid0.Coords, EltTy.bits .f32 = 32 ∨ (Rect.block (s := S512x16x2048) S8x16x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x16x2048.size a ≤ S512x16x2048.size a
  hwx0_9 : ∀ i : grid0.Coords, EltTy.bits .f32 = 32 ∨ (Rect.block (s := S512x16x2048) S8x16x2048.size (cc0_transform_9 i) (hinb0_9 i)).WholeWords (EltTy.packing .f32)

variable [Facts₀]

def dot_S8x2048_S2048x2048_S8x2048_1_1_0_0_n_n : DotDims S8x2048 S2048x2048 S8x2048 where
  lhsContracting := [1]
  rhsContracting := [1]
  lhsNonContracting := [0]
  rhsNonContracting := [0]
  lhsBatch := []
  rhsBatch := []
  wf := dot_S8x2048_S2048x2048_S8x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_v0) S8x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S8x16x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x16x16x2048 : Shape := ⟨4, ![32, 16, 16, 2048]⟩
abbrev S2048x2048 : Shape := ⟨2, ![2048, 2048]⟩
abbrev S2048 : Shape := ⟨1, ![2048]⟩
abbrev S512x16x2048 : Shape := ⟨3, ![512, 16, 2048]⟩
abbrev S_ : Shape := ⟨0, ![]⟩
abbrev S512x2048 : Shape := ⟨2, ![512, 2048]⟩
abbrev S1x2048 : Shape := ⟨2, ![1, 2048]⟩
abbrev S512x1x2048 : Shape := ⟨3, ![512, 1, 2048]⟩
abbrev S1x1x2048 : Shape := ⟨3, ![1, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S32x16x16x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S512x16x2048, .f32⟩
  | .hbm, ⟨10, _⟩ => ⟨S_, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x1x2048, .f32⟩
  | .hbm, ⟨28, _⟩ => ⟨S512x16x2048, .f32⟩
  | .hbm, ⟨29, _⟩ => ⟨S512x16x2048, .f32⟩
  | .hbm, ⟨30, _⟩ => ⟨S512x16x2048, .f32⟩
  | .hbm, ⟨31, _⟩ => ⟨S1x1x2048, .f32⟩
  | .hbm, ⟨32, _⟩ => ⟨S512x16x2048, .f32⟩
  | .hbm, ⟨33, _⟩ => ⟨S512x16x2048, .f32⟩
  | .hbm, ⟨34, _⟩ => ⟨S_, .f32⟩
  | .hbm, ⟨35, _⟩ => ⟨S512x2048, .f32⟩
  | .hbm, ⟨36, _⟩ => ⟨S512x1x2048, .f32⟩
  | .hbm, ⟨37, _⟩ => ⟨S_, .f32⟩
  | .hbm, ⟨38, _⟩ => ⟨S512x1x2048, .f32⟩
  | .hbm, ⟨39, _⟩ => ⟨S512x1x2048, .f32⟩
  | .hbm, ⟨40, _⟩ => ⟨S512x16x2048, .f32⟩
  | .hbm, ⟨41, _⟩ => ⟨S512x16x2048, .f32⟩
  | .hbm, ⟨42, _⟩ => ⟨S512x16x2048, .f32⟩
  | .hbm, ⟨43, _⟩ => ⟨S_, .f32⟩
  | .hbm, ⟨44, _⟩ => ⟨S512x2048, .f32⟩
  | .hbm, ⟨45, _⟩ => ⟨S512x1x2048, .f32⟩
  | .hbm, ⟨46, _⟩ => ⟨S_, .f32⟩
  | .hbm, ⟨47, _⟩ => ⟨S512x1x2048, .f32⟩
  | .hbm, ⟨48, _⟩ => ⟨S512x1x2048, .f32⟩
  | .hbm, ⟨49, _⟩ => ⟨S512x16x2048, .f32⟩
  | .hbm, ⟨50, _⟩ => ⟨S512x16x2048, .f32⟩
  | .hbm, ⟨51, _⟩ => ⟨S_, .f32⟩
  | .hbm, ⟨52, _⟩ => ⟨S512x1x2048, .f32⟩
  | .hbm, ⟨53, _⟩ => ⟨S512x1x2048, .f32⟩
  | .hbm, ⟨54, _⟩ => ⟨S512x1x2048, .f32⟩
  | .hbm, ⟨55, _⟩ => ⟨S512x16x2048, .f32⟩
  | .hbm, ⟨56, _⟩ => ⟨S512x16x2048, .f32⟩
  | .hbm, ⟨57, _⟩ => ⟨S1x1x2048, .f32⟩
  | .hbm, ⟨58, _⟩ => ⟨S512x16x2048, .f32⟩
  | .hbm, ⟨59, _⟩ => ⟨S512x16x2048, .f32⟩
  | .hbm, ⟨60, _⟩ => ⟨S1x1x2048, .f32⟩
  | .hbm, ⟨61, _⟩ => ⟨S512x16x2048, .f32⟩
  | .hbm, ⟨62, _⟩ => ⟨S512x16x2048, .f32⟩
  | .hbm, ⟨63, _⟩ => ⟨S_, .f32⟩
  | .hbm, ⟨64, _⟩ => ⟨S512x16x2048, .f32⟩
  | .hbm, ⟨65, _⟩ => ⟨S512x16x2048, .f32⟩
  | .hbm, ⟨66, _⟩ => ⟨S512x16x2048, .f32⟩
  | .hbm, ⟨67, _⟩ => ⟨S1x1x2048, .f32⟩
  | .hbm, ⟨68, _⟩ => ⟨S512x16x2048, .f32⟩
  | .hbm, ⟨69, _⟩ => ⟨S512x16x2048, .f32⟩
  | .hbm, ⟨70, _⟩ => ⟨S32x16x16x2048, .f32⟩
  | _, _ => ⟨S32x16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  shapeCasts_S32x16x16x2048_S512x16x2048 : S32x16x16x2048.ShapeCasts S512x16x2048
  reducesTo_S512x16x2048_S512x2048_d1 : S512x16x2048.ReducesTo [1] S512x2048
  h_S_ : 0 < S_.numel
  bcast_S_S512x2048 : S_.BroadcastsInDim S512x2048 (![] : Fin 0 → Fin S512x2048.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S512x2048_S512x1x2048_0_2 : S512x2048.BroadcastsInDim S512x1x2048 (![0, 2] : Fin 2 → Fin S512x1x2048.rank)
  bcast_S512x1x2048_S512x16x2048_0_1_2 : S512x1x2048.BroadcastsInDim S512x16x2048 (![0, 1, 2] : Fin 3 → Fin S512x16x2048.rank)
  bcast_S2048_S1x1x2048_2 : S2048.BroadcastsInDim S1x1x2048 (![2] : Fin 1 → Fin S1x1x2048.rank)
  bcast_S1x1x2048_S512x16x2048_0_1_2 : S1x1x2048.BroadcastsInDim S512x16x2048 (![0, 1, 2] : Fin 3 → Fin S512x16x2048.rank)
  bcast_S_S512x1x2048 : S_.BroadcastsInDim S512x1x2048 (![] : Fin 0 → Fin S512x1x2048.rank)
  bcast_S_S512x16x2048 : S_.BroadcastsInDim S512x16x2048 (![] : Fin 0 → Fin S512x16x2048.rank)
  shapeCasts_S512x16x2048_S32x16x16x2048 : S512x16x2048.ShapeCasts S32x16x16x2048
  dot_S512x2048_S2048x2048_S512x2048_1_1_0_0_n_n_wf : DotDims.WF S512x2048 S2048x2048 S512x2048 [1] [1] [0] [0] [] []
  dot_S512x16x2048_S2048x2048_S512x16x2048_2_1_01_0_n_n_wf : DotDims.WF S512x16x2048 S2048x2048 S512x16x2048 [2] [1] [0, 1] [0] [] []

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x16x2048_S2048x2048_S512x16x2048_2_1_01_0_n_n : DotDims S512x16x2048 S2048x2048 S512x16x2048 where
  lhsContracting := [2]
  rhsContracting := [1]
  lhsNonContracting := [0, 1]
  rhsNonContracting := [0]
  lhsBatch := []
  rhsBatch := []
  wf := dot_S512x16x2048_S2048x2048_S512x16x2048_2_1_01_0_n_n_wf

class Facts : Prop extends Facts₀ where

variable [Facts]
-- ==== Proof.RefIdx.lean ====
/- Where each of the reference's operations reads its operands: the index maps of the reference's read-at-an-index
   lemmas, evaluated at an index given by its coordinates. A keepdims broadcast reads the kept entry at coordinate 0 of
   its unit axis; a sum over the parts at (n, d) reads (n, q, d); a product with a weight matrix contracted on its
   second axis reads the left operand at (…, k) and the matrix at (d, k). -/
import proofs.«139088_j91130616087328_1_alg».proof.Proof.Gen.ReferenceIdeal.Read

namespace Cert.Gcn.Ref

open Idealize.ShloMosaic Idealize.ShloMosaic.ValueIdx Cert.ReferenceIdeal Cert.ReferenceIdeal.Gen Cert.ReferenceIdeal.Read

/-- The sum over the parts, for the mean part. -/
theorem e_v1 (n : Fin 512) (c : Fin 2048) (q : Fin 16) : idx_main_v1 (ix2 n c) q = ix3 n q c := by
  funext a; match a with | ⟨0, _⟩ => rfl | ⟨1, _⟩ => rfl | ⟨2, _⟩ => rfl

/-- The attention product, left operand. -/
theorem e_l4 (n : Fin 512) (d : Fin 2048) (k : Fin 2048) : lidx_main_v4 (ix2 n d) k = ix2 n k := by
  funext a; match a with | ⟨0, _⟩ => rfl | ⟨1, _⟩ => rfl

/-- The attention product, the weight matrix. -/
theorem e_r4 (n : Fin 512) (d : Fin 2048) (k : Fin 2048) : ridx_main_v4 (ix2 n d) k = ix2 d k := by
  funext a; match a with | ⟨0, _⟩ => rfl | ⟨1, _⟩ => rfl

/-- The attention bias spread over the frames. -/
theorem e_v6 (n : Fin 512) (d : Fin 2048) : idx_main_v6 (ix2 n d) = ix2 (0 : Fin 1) d := by
  funext a; match a with | ⟨0, _⟩ => rfl | ⟨1, _⟩ => rfl

/-- The attention bias as one row. -/
theorem e_v5 (u : Fin 1) (d : Fin 2048) : idx_main_v5 (ix2 u d) = ix1 d := by
  funext a; match a with | ⟨0, _⟩ => rfl

/-- The gate spread over the parts. -/
theorem e_v15 (n : Fin 512) (p : Fin 16) (d : Fin 2048) : idx_main_v15 (ix3 n p d) = ix3 n (0 : Fin 1) d := by
  funext a; match a with | ⟨0, _⟩ => rfl | ⟨1, _⟩ => rfl | ⟨2, _⟩ => rfl

/-- The gate kept on a unit axis. -/
theorem e_v14 (n : Fin 512) (u : Fin 1) (d : Fin 2048) : idx_main_v14 (ix3 n u d) = ix2 n d := by
  funext a; match a with | ⟨0, _⟩ => rfl | ⟨1, _⟩ => rfl

/-- The first linear layer, left operand. -/
theorem e_l17 (n : Fin 512) (p : Fin 16) (d : Fin 2048) (k : Fin 2048) : lidx_main_v17 (ix3 n p d) k = ix3 n p k := by
  funext a; match a with | ⟨0, _⟩ => rfl | ⟨1, _⟩ => rfl | ⟨2, _⟩ => rfl

/-- The first linear layer, the weight matrix. -/
theorem e_r17 (n : Fin 512) (p : Fin 16) (d : Fin 2048) (k : Fin 2048) : ridx_main_v17 (ix3 n p d) k = ix2 d k := by
  funext a; match a with | ⟨0, _⟩ => rfl | ⟨1, _⟩ => rfl

/-- The first bias spread over the block. -/
theorem e_v19 (n : Fin 512) (p : Fin 16) (d : Fin 2048) : idx_main_v19 (ix3 n p d) = ix3 (0 : Fin 1) (0 : Fin 1) d := by
  funext a; match a with | ⟨0, _⟩ => rfl | ⟨1, _⟩ => rfl | ⟨2, _⟩ => rfl

/-- The first bias on two unit axes. -/
theorem e_v18 (u : Fin 1) (v : Fin 1) (d : Fin 2048) : idx_main_v18 (ix3 u v d) = ix1 d := by
  funext a; match a with | ⟨0, _⟩ => rfl

/-- The sum over the parts, for the mean. -/
theorem e_v21 (n : Fin 512) (d : Fin 2048) (q : Fin 16) : idx_main_v21 (ix2 n d) q = ix3 n q d := by
  funext a; match a with | ⟨0, _⟩ => rfl | ⟨1, _⟩ => rfl | ⟨2, _⟩ => rfl

/-- The mean's sum kept on a unit axis. -/
theorem e_v22 (n : Fin 512) (u : Fin 1) (d : Fin 2048) : idx_main_v22 (ix3 n u d) = ix2 n d := by
  funext a; match a with | ⟨0, _⟩ => rfl | ⟨1, _⟩ => rfl

/-- The mean spread over the parts, for the variance. -/
theorem e_v25 (n : Fin 512) (p : Fin 16) (d : Fin 2048) : idx_main_v25 (ix3 n p d) = ix3 n (0 : Fin 1) d := by
  funext a; match a with | ⟨0, _⟩ => rfl | ⟨1, _⟩ => rfl | ⟨2, _⟩ => rfl

/-- The sum over the parts, for the variance. -/
theorem e_v28 (n : Fin 512) (d : Fin 2048) (q : Fin 16) : idx_main_v28 (ix2 n d) q = ix3 n q d := by
  funext a; match a with | ⟨0, _⟩ => rfl | ⟨1, _⟩ => rfl | ⟨2, _⟩ => rfl

/-- The variance's sum kept on a unit axis. -/
theorem e_v29 (n : Fin 512) (u : Fin 1) (d : Fin 2048) : idx_main_v29 (ix3 n u d) = ix2 n d := by
  funext a; match a with | ⟨0, _⟩ => rfl | ⟨1, _⟩ => rfl

/-- The mean spread over the parts, for the centring. -/
theorem e_v32 (n : Fin 512) (p : Fin 16) (d : Fin 2048) : idx_main_v32 (ix3 n p d) = ix3 n (0 : Fin 1) d := by
  funext a; match a with | ⟨0, _⟩ => rfl | ⟨1, _⟩ => rfl | ⟨2, _⟩ => rfl

/-- The inverse deviation spread over the parts. -/
theorem e_v37 (n : Fin 512) (p : Fin 16) (d : Fin 2048) : idx_main_v37 (ix3 n p d) = ix3 n (0 : Fin 1) d := by
  funext a; match a with | ⟨0, _⟩ => rfl | ⟨1, _⟩ => rfl | ⟨2, _⟩ => rfl

/-- The scale spread over the block. -/
theorem e_v40 (n : Fin 512) (p : Fin 16) (d : Fin 2048) : idx_main_v40 (ix3 n p d) = ix3 (0 : Fin 1) (0 : Fin 1) d := by
  funext a; match a with | ⟨0, _⟩ => rfl | ⟨1, _⟩ => rfl | ⟨2, _⟩ => rfl

/-- The scale on two unit axes. -/
theorem e_v39 (u : Fin 1) (v : Fin 1) (d : Fin 2048) : idx_main_v39 (ix3 u v d) = ix1 d := by
  funext a; match a with | ⟨0, _⟩ => rfl

/-- The shift spread over the block. -/
theorem e_v43 (n : Fin 512) (p : Fin 16) (d : Fin 2048) : idx_main_v43 (ix3 n p d) = ix3 (0 : Fin 1) (0 : Fin 1) d := by
  funext a; match a with | ⟨0, _⟩ => rfl | ⟨1, _⟩ => rfl | ⟨2, _⟩ => rfl

/-- The shift on two unit axes. -/
theorem e_v42 (u : Fin 1) (v : Fin 1) (d : Fin 2048) : idx_main_v42 (ix3 u v d) = ix1 d := by
  funext a; match a with | ⟨0, _⟩ => rfl

/-- The second linear layer, left operand. -/
theorem e_l46 (n : Fin 512) (p : Fin 16) (d : Fin 2048) (k : Fin 2048) : lidx_main_v46 (ix3 n p d) k = ix3 n p k := by
  funext a; match a with | ⟨0, _⟩ => rfl | ⟨1, _⟩ => rfl | ⟨2, _⟩ => rfl

/-- The second linear layer, the weight matrix. -/
theorem e_r46 (n : Fin 512) (p : Fin 16) (d : Fin 2048) (k : Fin 2048) : ridx_main_v46 (ix3 n p d) k = ix2 d k := by
  funext a; match a with | ⟨0, _⟩ => rfl | ⟨1, _⟩ => rfl

/-- The second bias spread over the block. -/
theorem e_v48 (n : Fin 512) (p : Fin 16) (d : Fin 2048) : idx_main_v48 (ix3 n p d) = ix3 (0 : Fin 1) (0 : Fin 1) d := by
  funext a; match a with | ⟨0, _⟩ => rfl | ⟨1, _⟩ => rfl | ⟨2, _⟩ => rfl

/-- The second bias on two unit axes. -/
theorem e_v47 (u : Fin 1) (v : Fin 1) (d : Fin 2048) : idx_main_v47 (ix3 u v d) = ix1 d := by
  funext a; match a with | ⟨0, _⟩ => rfl

end Cert.Gcn.Ref
-- ==== Proof.Spec.lean ====
/-
  The specification: what both programs compute for ONE frame, a `[16, 2048]` slice `x` (16 parts of 2048 channels), from
  three weight matrices and five parameter rows, over the extended reals:

    gate d   = σ( Σ_c ((Σ_p x p c) / 16) · W_att d c + b_att d )          the frame's attention gate, from its mean part
    hid p d  = Σ_c (x p c · gate c) · W₁ d c + b₁ d                       the gated frame through the first linear layer
    mu d     = (Σ_p hid p d) / 16                                         the frame's own mean over its parts
    var d    = (Σ_p (hid p d − mu d)²) / 16                               and its own (biased) variance
    nrm p d  = (hid p d − mu d) · rsqrt (var d + ε) · γ d + β d
    out p d  = Σ_c max (nrm p c) 0 · W₂ d c + b₂ d

  No frame reads another. So the result for a stack of `N` frames is `frameOut` applied frame by frame (`G`), for the whole
  `[512, 16, 2048]` array and for a block of 8 of its frames alike, and a block of the whole result is the result of the
  block (`G_block`).

  The three literals are kept as the f32 words both programs print (16.0, ε = f32(1e-5), 0.0): the same word on both
  sides is never evaluated.
-/
import Idealize.ShloMosaic.PureOps.Ideal.Laws
import Idealize.ShloMosaic.Lib.ValueIdx

noncomputable section

namespace Cert.Gcn

open Idealize.ShloMosaic Idealize.ShloMosaic.ValueIdx

/-- The number of parts of a frame, as the f32 word 16.0. -/
abbrev parts : EReal := Ideal.ofBits .f32 0x41800000#32
/-- The variance's guard ε, as the f32 word nearest 1e-5. -/
abbrev eps : EReal := Ideal.ofBits .f32 0x3727C5AC#32
/-- The rectifier's floor, as the f32 word 0.0. -/
abbrev floor0 : EReal := Ideal.ofBits .f32 0x00000000#32

/-- The layer's parameters, by coordinates: a weight matrix is read at (output channel, input channel). -/
structure Params where
  watt : Fin 2048 → Fin 2048 → EReal
  batt : Fin 2048 → EReal
  w1 : Fin 2048 → Fin 2048 → EReal
  b1 : Fin 2048 → EReal
  gamma : Fin 2048 → EReal
  beta : Fin 2048 → EReal
  w2 : Fin 2048 → Fin 2048 → EReal
  b2 : Fin 2048 → EReal

section Frame

variable (P : Params) (x : Fin 16 → Fin 2048 → EReal)

/-- The frame's attention gate at channel `d`: the logistic of the linear map of the frame's mean part. -/
def gate (d : Fin 2048) : EReal :=
  Ideal.logistic ((∑ c : Fin 2048, Ideal.div (∑ p : Fin 16, x p c) parts * P.watt d c) + P.batt d)

/-- The gated frame through the first linear layer. -/
def hid (p : Fin 16) (d : Fin 2048) : EReal := (∑ c : Fin 2048, (x p c * gate P x c) * P.w1 d c) + P.b1 d

/-- The mean of `hid` over the frame's parts. -/
def mu (d : Fin 2048) : EReal := Ideal.div (∑ p : Fin 16, hid P x p d) parts

/-- The biased variance of `hid` over the frame's parts. -/
def var (d : Fin 2048) : EReal :=
  Ideal.div (∑ p : Fin 16, (hid P x p d - mu P x d) * (hid P x p d - mu P x d)) parts

/-- `hid` normalised by the frame's own statistics, scaled and shifted. -/
def nrm (p : Fin 16) (d : Fin 2048) : EReal :=
  (hid P x p d - mu P x d) * Ideal.rsqrt (var P x d + eps) * P.gamma d + P.beta d

/-- The frame's result: the rectified normalised frame through the second linear layer. -/
def frameOut (p : Fin 16) (d : Fin 2048) : EReal := (∑ c : Fin 2048, max (nrm P x p c) floor0 * P.w2 d c) + P.b2 d

end Frame

/-- A weight matrix's shape, a parameter row's, and a stack of `N` frames'. -/
abbrev SW : Shape := ⟨2, ![2048, 2048]⟩
abbrev SB : Shape := ⟨1, ![2048]⟩
abbrev SF (N : ℕ) : Shape := ⟨3, ![N, 16, 2048]⟩

/-- The parameters read off their arrays. -/
def params (a1 : SW.Idx → EReal) (a2 : SB.Idx → EReal) (a3 : SW.Idx → EReal) (a4 a5 a6 : SB.Idx → EReal)
    (a7 : SW.Idx → EReal) (a8 : SB.Idx → EReal) : Params where
  watt d c := a1 (ix2 d c)
  batt d := a2 (ix1 d)
  w1 d c := a3 (ix2 d c)
  b1 d := a4 (ix1 d)
  gamma d := a5 (ix1 d)
  beta d := a6 (ix1 d)
  w2 d c := a7 (ix2 d c)
  b2 d := a8 (ix1 d)

/-- Frame `n` of a stack of frames. -/
def frame {N : ℕ} (X : (SF N).Idx → EReal) (n : Fin N) : Fin 16 → Fin 2048 → EReal := fun p c => X (ix3 n p c)

/-- The layer applied to every frame of a stack. -/
def G {N : ℕ} (P : Params) (X : (SF N).Idx → EReal) : (SF N).Idx → EReal :=
  fun i => frameOut P (frame X (i 0)) (i 1) (i 2)

theorem G_apply {N : ℕ} (P : Params) (X : (SF N).Idx → EReal) (n : Fin N) (p : Fin 16) (d : Fin 2048) :
    G P X (ix3 n p d) = frameOut P (frame X n) p d := rfl

/-- A block of the whole result is the result of the block: if frame `a` of `Y` is frame `n` of `X`, the two results
    agree on that frame. -/
theorem G_block {N M : ℕ} (P : Params) (X : (SF N).Idx → EReal) (Y : (SF M).Idx → EReal) (n : Fin N) (a : Fin M)
    (h : ∀ p c, Y (ix3 a p c) = X (ix3 n p c)) (p : Fin 16) (d : Fin 2048) :
    G P Y (ix3 a p d) = G P X (ix3 n p d) := by
  rw [G_apply, G_apply]
  have e : frame Y a = frame X n := funext fun p => funext fun c => h p c
  rw [e]

/-- The f32 word of 1.0 is the real 1: the host spells the logistic with it. -/
theorem one_word : Ideal.ofBits .f32 0x3F800000#32 = 1 := by
  simp [Ideal.ofBits, Ideal.ieee, -EReal.coe_mul]; norm_num

/-- The logistic as the host spells it, `1 / (1 + e^(−z))` with the word of 1.0, is the logistic. -/
theorem host_logistic (z : EReal) :
    Ideal.div (Ideal.ofBits .f32 0x3F800000#32) (Ideal.ofBits .f32 0x3F800000#32 + Ideal.exp (-z)) = Ideal.logistic z := by
  rw [one_word]; rfl

end Cert.Gcn

end
-- ==== Proof.Ref.lean ====
/-
  The reference computes the layer frame by frame: its `[512, 16, 2048]` stage before the closing reshape is the
  specification `G` of its reshaped input and its parameter arrays.

  Read at an index, each of the reference's operations is its operands at an index: a keepdims broadcast reads the
  kept entry, a `dot_general` with the weight matrix contracted on its second axis is `Σ_k lhs (…, k) · W (d, k)`, a sum
  over the parts is the zero initial value plus `Σ_p`. Stage by stage (gate, first linear layer, mean, variance,
  normalisation, second linear layer) these are the specification's stages; the logistic, which the reference spells
  `1 / (1 + e^(−z))`, is the specification's logistic on every extended real.
-/
import proofs.«139088_j91130616087328_1_alg».proof.Proof.Gen.ReferenceIdeal.Read
import proofs.«139088_j91130616087328_1_alg».proof.Proof.RefIdx
import proofs.«139088_j91130616087328_1_alg».proof.Proof.Spec

noncomputable section

namespace Cert.Gcn.Ref

open Idealize.ShloMosaic Idealize.ShloMosaic.ValueIdx Cert.ReferenceIdeal Cert.ReferenceIdeal.Gen Cert.ReferenceIdeal.Read

variable (x0 : (⟨S32x16x16x2048, .f32⟩ : BufTy).Contents (Elt Ideal))
  (x1 : (⟨S2048x2048, .f32⟩ : BufTy).Contents (Elt Ideal)) (x2 : (⟨S2048, .f32⟩ : BufTy).Contents (Elt Ideal))
  (x3 : (⟨S2048x2048, .f32⟩ : BufTy).Contents (Elt Ideal)) (x4 x5 x6 : (⟨S2048, .f32⟩ : BufTy).Contents (Elt Ideal))
  (x7 : (⟨S2048x2048, .f32⟩ : BufTy).Contents (Elt Ideal)) (x8 : (⟨S2048, .f32⟩ : BufTy).Contents (Elt Ideal))

local notation "P" => params x1 x2 x3 x4 x5 x6 x7 x8
local notation "X" => val_main_v0 (F := Ideal) x0

/-- The gate: the mean over the parts, the attention matrix, the bias, and the logistic spelt with the word of 1.0. -/
theorem ref_gate (n : Fin 512) (d : Fin 2048) :
    val_main_v13 (F := Ideal) x0 x1 x2 (ix2 n d) = gate P (frame X n) d := by
  simp only [val_main_v13_apply, val_main_v12_apply, val_main_cst_2_apply, val_main_v11_apply, val_main_v10_apply,
    val_main_cst_1_apply, val_main_v9_apply, val_main_v8_apply, val_main_v7_apply, val_main_v6_apply, val_main_v5_apply,
    val_main_v4_apply, val_main_v3_apply, val_main_v2_apply, val_main_cst_0_apply, val_main_v1_apply, val_main_cst_apply,
    e_v1, e_l4, e_r4, e_v6, e_v5, Ideal.ofBits_def, Ideal.ofBits_zero_f32, zero_add]
  refine (host_logistic _).trans ?_
  rfl

/-- The first linear layer of the gated frame. -/
theorem ref_hid (n : Fin 512) (p : Fin 16) (d : Fin 2048) :
    val_main_v20 (F := Ideal) x0 x1 x2 x3 x4 (ix3 n p d) = hid P (frame X n) p d := by
  simp only [val_main_v20_apply, val_main_v19_apply, val_main_v18_apply, val_main_v17_apply, val_main_v16_apply,
    val_main_v15_apply, val_main_v14_apply, e_l17, e_r17, e_v19, e_v18, e_v15, e_v14,
    ref_gate x0 x1 x2 x3 x4 x5 x6 x7 x8]
  rfl

/-- The frame's mean over its parts, kept on a unit axis. -/
theorem ref_mu (n : Fin 512) (u : Fin 1) (d : Fin 2048) :
    val_main_v24 (F := Ideal) x0 x1 x2 x3 x4 (ix3 n u d) = mu P (frame X n) d := by
  simp only [val_main_v24_apply, val_main_v23_apply, val_main_cst_4_apply, val_main_v22_apply, val_main_v21_apply,
    val_main_cst_3_apply, e_v22, e_v21, ref_hid x0 x1 x2 x3 x4 x5 x6 x7 x8, Ideal.ofBits_def, Ideal.ofBits_zero_f32,
    zero_add]
  rfl

/-- The frame's biased variance over its parts, kept on a unit axis. -/
theorem ref_var (n : Fin 512) (u : Fin 1) (d : Fin 2048) :
    val_main_v31 (F := Ideal) x0 x1 x2 x3 x4 (ix3 n u d) = var P (frame X n) d := by
  simp only [val_main_v31_apply, val_main_v30_apply, val_main_cst_6_apply, val_main_v29_apply, val_main_v28_apply,
    val_main_cst_5_apply, val_main_v27_apply, val_main_v26_apply, val_main_v25_apply, e_v29, e_v28, e_v25,
    ref_hid x0 x1 x2 x3 x4 x5 x6 x7 x8, ref_mu x0 x1 x2 x3 x4 x5 x6 x7 x8, Ideal.ofBits_def, Ideal.ofBits_zero_f32,
    zero_add]
  rfl

/-- The normalised, scaled and shifted frame. -/
theorem ref_nrm (n : Fin 512) (p : Fin 16) (d : Fin 2048) :
    val_main_v44 (F := Ideal) x0 x1 x2 x3 x4 x5 x6 (ix3 n p d) = nrm P (frame X n) p d := by
  simp only [val_main_v44_apply, val_main_v43_apply, val_main_v42_apply, val_main_v41_apply, val_main_v40_apply,
    val_main_v39_apply, val_main_v38_apply, val_main_v37_apply, val_main_v36_apply, val_main_v35_apply, val_main_v34_apply,
    val_main_cst_7_apply, val_main_v33_apply, val_main_v32_apply, e_v43, e_v42, e_v40, e_v39, e_v37, e_v32,
    ref_hid x0 x1 x2 x3 x4 x5 x6 x7 x8, ref_mu x0 x1 x2 x3 x4 x5 x6 x7 x8, ref_var x0 x1 x2 x3 x4 x5 x6 x7 x8]
  rfl

/-- The second linear layer of the rectified frame: the reference's stage before its closing reshape. -/
theorem ref_out (n : Fin 512) (p : Fin 16) (d : Fin 2048) :
    val_main_v49 (F := Ideal) x0 x1 x2 x3 x4 x5 x6 x7 x8 (ix3 n p d) = frameOut P (frame X n) p d := by
  simp only [val_main_v49_apply, val_main_v48_apply, val_main_v47_apply, val_main_v46_apply, val_main_v45_apply,
    val_main_call0_v0_apply, val_main_call0_cst_apply, e_l46, e_r46, e_v48, e_v47,
    ref_nrm x0 x1 x2 x3 x4 x5 x6 x7 x8]
  rfl

/-- The reference's `[512, 16, 2048]` stage is the layer applied to every frame of its reshaped input. -/
theorem stage_eq : val_main_v49 (F := Ideal) x0 x1 x2 x3 x4 x5 x6 x7 x8 = G P X := by
  funext i
  rw [eq_ix3 i]
  exact ref_out x0 x1 x2 x3 x4 x5 x6 x7 x8 _ _ _

end Cert.Gcn.Ref

end
-- ==== Proof.LibBlockOps.lean ====
/-
  General lemmas: the vector operations of a kernel that works on a block of frames, read at an index at the
  ideal instance. A block is an `[a, b, c]` array: `a` frames, each of `b` rows and `c` lanes.

  * a sum over the rows of each frame (the middle axis), at `(i, k)`, is `Σ p, src (i, p, k)`;
  * a per-frame row `[a, c]` kept as `[a, 1, c]` and spread over the frame's rows reads the frame's entry;
  * the block laid out as `a·b` rows, and back: row `i·b + p` is row `p` of frame `i`;
  * a `[c]` parameter spread over every row (of an `[m, c]` array, of an `[a, b, c]` block) reads its entry;
  * a product with the right operand transposed, `[M,K]·[N,K]ᵀ`, into a zero accumulator, at `(p, c)`, is
    `Σ k, lhs (p, k) · rhs (c, k)`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.BlockOps

open Idealize.ShloMosaic Idealize.ShloMosaic.ValueIdx

variable {α : Type}

/-- A sum over the middle axis of an `[a, b, c]` block, read at `(i, k)`: the sum over the rows `p` of the block at
    `(i, p, k)`. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ p : Fin b, src (ix3 i p k) := by
  rw [Ideal.multiReduction_add_single]
  refine Finset.sum_congr rfl fun p _ => congrArg src (funext fun ax => Fin.ext ?_)
  match ax with
  | ⟨0, _⟩ => rfl
  | ⟨1, _⟩ => rfl
  | ⟨2, _⟩ => rfl

/-- The same sum for an f32 block into the zero word, the sum's neutral element at f32 being that word: the side
    condition is then the equation `0 = 0`. -/
theorem midSum0_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ p : Fin b, src (ix3 i p k) :=
  midSum_apply src 0x00000000#32 h hφ hacc i k

/-- The sum over the middle axis as a function of the index `(i, k)`. -/
def midSumFn {a b c : ℕ} (src : (⟨3, ![a, b, c]⟩ : Shape).Idx → EReal) : (⟨2, ![a, c]⟩ : Shape).Idx → EReal :=
  fun j => ∑ p : Fin b, src (ix3 (j 0) p (j 1))

theorem midSumFn_apply {a b c : ℕ} (src : (⟨3, ![a, b, c]⟩ : Shape).Idx → EReal) (i : Fin a) (k : Fin c) :
    midSumFn src (ix2 i k) = ∑ p : Fin b, src (ix3 i p k) := rfl

/-- A kernel's sum of an f32 block over its middle axis, into the zero word, is that function. -/
theorem midSum0_eq {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) :
    multiReduction .add [1] ⟨2, ![a, c]⟩ src 0x00000000#32 h hφ hacc = midSumFn src := by
  funext j
  rw [eq_ix2 j]
  exact midSum0_apply src h hφ hacc (j 0) (j 1)

/-- An `[a, c]` array cast to `[a, 1, c]` (a kept unit axis) reads, at `(i, u, k)`, the operand at `(i, k)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (k : Fin c) : shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array broadcast to `[a, b, c]` reads, at `(i, p, k)`, the operand at `(i, 0, k)`. -/
theorem broadcastTo_a1c_abc_apply {a b c : ℕ} (v : (⟨3, ![a, 1, c]⟩ : Shape).Idx → α) (h : (⟨3, ![a, 1, c]⟩ : Shape).Broadcasts ⟨3, ![a, b, c]⟩)
    (i : Fin a) (p : Fin b) (k : Fin c) : broadcastTo ⟨3, ![a, b, c]⟩ v h (ix3 i p k) = v (ix3 i (0 : Fin 1) k) := by
  refine broadcastTo_apply v h (ix3 i p k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A per-frame row `[a, c]` kept as `[a, 1, c]` and spread over the frame's `b` rows: at `(i, p, k)` it is frame `i`'s
    entry `k`. -/
theorem frameRow_spread_apply {a b c : ℕ} (x : (⟨2, ![a, c]⟩ : Shape).Idx → α) (hs : (⟨2, ![a, c]⟩ : Shape).ShapeCasts ⟨3, ![a, 1, c]⟩)
    (hb : (⟨3, ![a, 1, c]⟩ : Shape).Broadcasts ⟨3, ![a, b, c]⟩) (i : Fin a) (p : Fin b) (k : Fin c) :
    broadcastTo ⟨3, ![a, b, c]⟩ (shapeCast ⟨3, ![a, 1, c]⟩ x hs) hb (ix3 i p k) = x (ix2 i k) := by
  rw [broadcastTo_a1c_abc_apply, shapeCast_ac_a1c_apply]

/-- The frames' rows laid out one under another: an `[a, b, c]` block cast to `[m, c]` reads, at row `r = i·b + p`, the
    block at `(i, p, k)`. -/
theorem shapeCast_abc_mc_apply {a b c m : ℕ} (x : (⟨3, ![a, b, c]⟩ : Shape).Idx → α) (h : (⟨3, ![a, b, c]⟩ : Shape).ShapeCasts ⟨2, ![m, c]⟩)
    (i : Fin a) (p : Fin b) (k : Fin c) (r : Fin m) (hr : r.val = i.val * b + p.val) :
    shapeCast ⟨2, ![m, c]⟩ x h (ix2 r k) = x (ix3 i p k) :=
  shapeCast_apply x h _ _ (by
    rw [Shape.rowMajor_val_three, Shape.rowMajor_val_two]
    show (i.val * b + p.val) * c + k.val = r.val * c + k.val
    rw [hr])

/-- …and back: an `[m, c]` array cast to `[a, b, c]` reads, at `(i, p, k)`, its row `r = i·b + p`. -/
theorem shapeCast_mc_abc_apply {a b c m : ℕ} (y : (⟨2, ![m, c]⟩ : Shape).Idx → α) (h : (⟨2, ![m, c]⟩ : Shape).ShapeCasts ⟨3, ![a, b, c]⟩)
    (i : Fin a) (p : Fin b) (k : Fin c) (r : Fin m) (hr : r.val = i.val * b + p.val) :
    shapeCast ⟨3, ![a, b, c]⟩ y h (ix3 i p k) = y (ix2 r k) :=
  shapeCast_apply y h _ _ (by
    rw [Shape.rowMajor_val_two, Shape.rowMajor_val_three]
    show r.val * c + k.val = (i.val * b + p.val) * c + k.val
    rw [hr])

/-- A `[c]` parameter (cast to one row `[1, c]`) spread over every row of an `[m, c]` array: at `(r, k)` its entry `k`. -/
theorem param_rows_apply {m c : ℕ} (x : (⟨1, ![c]⟩ : Shape).Idx → α) (hs : (⟨1, ![c]⟩ : Shape).ShapeCasts ⟨2, ![1, c]⟩)
    (hb : (⟨2, ![1, c]⟩ : Shape).Broadcasts ⟨2, ![m, c]⟩) (r : Fin m) (k : Fin c) :
    broadcastTo ⟨2, ![m, c]⟩ (shapeCast ⟨2, ![1, c]⟩ x hs) hb (ix2 r k) = x (ix1 k) := by
  rw [broadcastTo_1b_ab_apply, shapeCast_a_1a_apply]

/-- A `[c]` array cast to `[1, 1, c]` reads, at `(u, v, k)`, the operand at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- A `[1, 1, c]` array broadcast to `[a, b, c]` reads, at `(i, p, k)`, the operand at `(0, 0, k)`. -/
theorem broadcastTo_11c_abc_apply {a b c : ℕ} (v : (⟨3, ![1, 1, c]⟩ : Shape).Idx → α) (h : (⟨3, ![1, 1, c]⟩ : Shape).Broadcasts ⟨3, ![a, b, c]⟩)
    (i : Fin a) (p : Fin b) (k : Fin c) : broadcastTo ⟨3, ![a, b, c]⟩ v h (ix3 i p k) = v (ix3 (0 : Fin 1) (0 : Fin 1) k) := by
  refine broadcastTo_apply v h (ix3 i p k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` parameter (cast to `[1, 1, c]`) spread over every row of every frame of an `[a, b, c]` block: at
    `(i, p, k)` its entry `k`. -/
theorem param_block_apply {a b c : ℕ} (x : (⟨1, ![c]⟩ : Shape).Idx → α) (hs : (⟨1, ![c]⟩ : Shape).ShapeCasts ⟨3, ![1, 1, c]⟩)
    (hb : (⟨3, ![1, 1, c]⟩ : Shape).Broadcasts ⟨3, ![a, b, c]⟩) (i : Fin a) (p : Fin b) (k : Fin c) :
    broadcastTo ⟨3, ![a, b, c]⟩ (shapeCast ⟨3, ![1, 1, c]⟩ x hs) hb (ix3 i p k) = x (ix1 k) := by
  rw [broadcastTo_11c_abc_apply, shapeCast_c_11c_apply]

/-- A product with the right operand transposed, `[M,K]·[N,K]ᵀ` (both operands contracted over their lanes), into the zero
    accumulator, read at `(p, c)`: the sum over `k` of `lhs (p, k) · rhs (c, k)`. -/
theorem matmulT_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil), dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

end Cert.BlockOps

end
-- ==== Proof.Block.lean ====
/-
  The kernel's body on one block of 8 frames is the layer applied to each of the block's frames.

  The body works on the block `[8, 16, 2048]` in two layouts: as 8 frames of 16 parts for the sums over the parts (the mean
  part, the mean and the variance of the hidden frame), whose results are kept on a unit axis and spread back over the
  parts; and as 128 rows, row `16·a + p` being part `p` of frame `a`, for the two big products with the transposed weight
  matrices. Read at `(a, p, d)`, every value of the body depends on frame `a` of the block only, and is the
  specification's stage of that frame: the attention gate (the body's logistic is the specification's), the hidden frame,
  its mean and variance, the centred frame, and the output.
-/
import proofs.«139088_j91130616087328_1_alg».proof.Proof.Gen.KernelIdeal.Skeleton
import proofs.«139088_j91130616087328_1_alg».proof.Proof.Spec
import proofs.«139088_j91130616087328_1_alg».proof.Proof.LibBlockOps

noncomputable section

namespace Cert.Gcn.Block

open Idealize.ShloMosaic Idealize.ShloMosaic.ValueIdx Cert.KernelIdeal Cert.KernelIdeal.Gen Cert.BlockOps

/-! ## The two layouts of a block -/

/-- Part `p` of frame `a` among the block's 128 rows laid out one under another. -/
def row (a : Fin 8) (p : Fin 16) : Fin 128 := ⟨a.val * 16 + p.val, by have := a.isLt; have := p.isLt; omega⟩

/-- The block as 128 rows, read at the row of `(a, p)`. -/
theorem rows_apply {α : Type} (x : S8x16x2048.Idx → α) (h : S8x16x2048.ShapeCasts S128x2048) (a : Fin 8) (p : Fin 16)
    (k : Fin 2048) : shapeCast S128x2048 x h (ix2 (row a p) k) = x (ix3 a p k) :=
  shapeCast_abc_mc_apply x h a p k (row a p) rfl

/-- 128 rows as a block of frames, read at `(a, p)`. -/
theorem frames_apply {α : Type} (y : S128x2048.Idx → α) (h : S128x2048.ShapeCasts S8x16x2048) (a : Fin 8) (p : Fin 16)
    (k : Fin 2048) : shapeCast S8x16x2048 y h (ix3 a p k) = y (ix2 (row a p) k) :=
  shapeCast_mc_abc_apply y h a p k (row a p) rfl

/-! ## The body's products and its two transcendentals, at an index -/

/-- The attention product of the block's 8 mean parts with the transposed weight matrix. -/
theorem mm8 (l : FVec Ideal S8x2048 .bf16) (r : FVec Ideal S2048x2048 .bf16) (a : Fin 8) (d : Fin 2048) :
    matmul dot_S8x2048_S2048x2048_S8x2048_1_1_0_0_n_n none l r (constant S8x2048 .f32 0x00000000#32) (ix2 a d)
      = ∑ k : Fin 2048, l (ix2 a k) * r (ix2 d k) :=
  matmulT_apply _ none l r a d

/-- A linear layer's product of the block's 128 rows with the transposed weight matrix. -/
theorem mm128 (l : FVec Ideal S128x2048 .bf16) (r : FVec Ideal S2048x2048 .bf16) (q : Fin 128) (d : Fin 2048) :
    matmul dot_S128x2048_S2048x2048_S128x2048_1_1_0_0_n_n none l r (constant S128x2048 .f32 0x00000000#32) (ix2 q d)
      = ∑ k : Fin 2048, l (ix2 q k) * r (ix2 d k) :=
  matmulT_apply _ none l r q d

theorem logistic_apply {s : Shape} {φ : FTy} (x : FVec Ideal s φ) (i : s.Idx) : logistic x i = Ideal.logistic (x i) := rfl

theorem rsqrt_apply {s : Shape} {φ : FTy} (x : FVec Ideal s φ) (i : s.Idx) : rsqrt x i = Ideal.rsqrt (x i) := rfl

/-! ## The body's values are the specification's stages of the block's frames -/

variable (x0 : Vec Ideal S8x16x2048 .f32) (x1 : Vec Ideal S2048x2048 .bf16) (x2 : Vec Ideal S2048 .f32)
  (x3 : Vec Ideal S2048x2048 .bf16) (x4 x5 x6 : Vec Ideal S2048 .f32) (x7 : Vec Ideal S2048x2048 .bf16)
  (x8 : Vec Ideal S2048 .f32)

local notation "P" => params x1 x2 x3 x4 x5 x6 x7 x8

/-- The hidden frame: the gate from the frame's mean part, the gated frame through the first linear layer. -/
theorem blk_hid (a : Fin 8) (p : Fin 16) (d : Fin 2048) :
    k0_pay2 (F := Ideal) x0 x1 x2 x3 x4 (ix3 a p d) = hid P (frame (N := 8) x0 a) p d := by
  unfold k0_pay2
  rw [midSum0_eq]
  simp only [frames_apply, rows_apply, addf_apply, mulf_apply, divf_apply, truncf_apply, mm8, mm128, param_rows_apply,
    frameRow_spread_apply, midSumFn_apply, shapeCast_self, logistic_apply, broadcast_apply]
  rfl

/-- The hidden frame's mean over its parts, on a unit axis. -/
theorem blk_mu (a : Fin 8) (u : Fin 1) (d : Fin 2048) :
    k0_pay3 (F := Ideal) x0 x1 x2 x3 x4 (ix3 a u d) = mu P (frame (N := 8) x0 a) d := by
  unfold k0_pay3
  rw [midSum0_eq]
  simp only [divf_apply, shapeCast_ac_a1c_apply, midSumFn_apply, broadcast_apply, blk_hid x0 x1 x2 x3 x4 x5 x6 x7 x8]
  rfl

/-- The hidden frame's biased variance over its parts, on a unit axis. -/
theorem blk_var (a : Fin 8) (u : Fin 1) (d : Fin 2048) :
    k0_pay4 (F := Ideal) x0 x1 x2 x3 x4 (ix3 a u d) = var P (frame (N := 8) x0 a) d := by
  unfold k0_pay4
  rw [midSum0_eq]
  simp only [divf_apply, shapeCast_ac_a1c_apply, midSumFn_apply, broadcast_apply, mulf_apply, subf_apply,
    broadcastTo_a1c_abc_apply, blk_hid x0 x1 x2 x3 x4 x5 x6 x7 x8, blk_mu x0 x1 x2 x3 x4 x5 x6 x7 x8]
  rfl

/-- The centred hidden frame. -/
theorem blk_cen (a : Fin 8) (p : Fin 16) (d : Fin 2048) :
    k0_pay5 (F := Ideal) x0 x1 x2 x3 x4 (ix3 a p d)
      = hid P (frame (N := 8) x0 a) p d - mu P (frame (N := 8) x0 a) d := by
  unfold k0_pay5
  simp only [subf_apply, broadcastTo_a1c_abc_apply, blk_hid x0 x1 x2 x3 x4 x5 x6 x7 x8,
    blk_mu x0 x1 x2 x3 x4 x5 x6 x7 x8]

/-- What the body stores: the normalised, rectified frame through the second linear layer. -/
theorem blk_out (a : Fin 8) (p : Fin 16) (d : Fin 2048) :
    k0_pay1 (F := Ideal) (k0_pay4 x0 x1 x2 x3 x4) (k0_pay5 x0 x1 x2 x3 x4) (k0_pay6 (F := Ideal)) x5 x6 x7 x8 (ix3 a p d)
      = frameOut P (frame (N := 8) x0 a) p d := by
  unfold k0_pay1
  simp only [frames_apply, rows_apply, addf_apply, mulf_apply, truncf_apply, maximumf_apply, mm128, param_rows_apply,
    param_block_apply, broadcastTo_a1c_abc_apply, rsqrt_apply, broadcast_apply, shapeCast_self,
    blk_var x0 x1 x2 x3 x4 x5 x6 x7 x8, blk_cen x0 x1 x2 x3 x4 x5 x6 x7 x8]
  rfl

/-- The stored block is the layer applied to each frame of the loaded block. -/
theorem block_eq :
    k0_pay1 (F := Ideal) (k0_pay4 x0 x1 x2 x3 x4) (k0_pay5 x0 x1 x2 x3 x4) (k0_pay6 (F := Ideal)) x5 x6 x7 x8
      = G (N := 8) P x0 := by
  funext i
  rw [eq_ix3 i]
  exact blk_out x0 x1 x2 x3 x4 x5 x6 x7 x8 _ _ _

end Cert.Gcn.Block

end
-- ==== Proof.Kern.lean ====
/-
  The kernel's run: its result array is the layer applied to every frame of its reshaped input.

  The pipeline has 64 points. Point `t` loads frames `8t … 8t+7` of the `[512, 16, 2048]` input and every parameter array whole
  (the parameter windows do not move), and writes back frames `8t … 8t+7` of the result. What it writes back is the layer
  applied to the loaded frames; since no frame reads another, that is block `t` of the layer applied to the whole input
  (`flushed_eq`). Frame `n` is covered by point `n / 8`, so the blocks cover the array, which therefore ends holding the layer
  applied to the whole input (`final`). The one host operation after the region reshapes that array (`tail_eq`).

  The arrays the region finds were written by the host operations before it: the input reshaped to `[512, 16, 2048]`, and
  the three weight matrices through a change of float format, which over the extended reals is the identity.
-/
import proofs.«139088_j91130616087328_1_alg».proof.Proof.Gen.KernelIdeal.Frame
import proofs.«139088_j91130616087328_1_alg».proof.Proof.Block
import Idealize.ShloMosaic.Lib.Pipeline.Value
import Idealize.ShloMosaic.Lib.StableHlo.Run

set_option maxRecDepth 16384

noncomputable section

namespace Cert.Gcn.Kern

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The arrays as the region finds them, and their blocks at a point, at their literal types -/

abbrev arr0 (c : Dev nD) : Vec Ideal S512x16x2048 .f32 := V m c main_v0
abbrev arr1 (c : Dev nD) : Vec Ideal S2048x2048 .bf16 := V m c main_v1
abbrev arr2 (c : Dev nD) : Vec Ideal S2048 .f32 := V m c main_arg2
abbrev arr3 (c : Dev nD) : Vec Ideal S2048x2048 .bf16 := V m c main_v2
abbrev arr4 (c : Dev nD) : Vec Ideal S2048 .f32 := V m c main_arg4
abbrev arr5 (c : Dev nD) : Vec Ideal S2048 .f32 := V m c main_arg5
abbrev arr6 (c : Dev nD) : Vec Ideal S2048 .f32 := V m c main_arg6
abbrev arr7 (c : Dev nD) : Vec Ideal S2048x2048 .bf16 := V m c main_v3
abbrev arr8 (c : Dev nD) : Vec Ideal S2048 .f32 := V m c main_arg8

abbrev blk0 (c : Dev nD) (t : Fin cfg0.N) : Vec Ideal S8x16x2048 .f32 := iblk m c 0 t
abbrev blk1 (c : Dev nD) (t : Fin cfg0.N) : Vec Ideal S2048x2048 .bf16 := iblk m c 1 t
abbrev blk2 (c : Dev nD) (t : Fin cfg0.N) : Vec Ideal S2048 .f32 := iblk m c 2 t
abbrev blk3 (c : Dev nD) (t : Fin cfg0.N) : Vec Ideal S2048x2048 .bf16 := iblk m c 3 t
abbrev blk4 (c : Dev nD) (t : Fin cfg0.N) : Vec Ideal S2048 .f32 := iblk m c 4 t
abbrev blk5 (c : Dev nD) (t : Fin cfg0.N) : Vec Ideal S2048 .f32 := iblk m c 5 t
abbrev blk6 (c : Dev nD) (t : Fin cfg0.N) : Vec Ideal S2048 .f32 := iblk m c 6 t
abbrev blk7 (c : Dev nD) (t : Fin cfg0.N) : Vec Ideal S2048x2048 .bf16 := iblk m c 7 t
abbrev blk8 (c : Dev nD) (t : Fin cfg0.N) : Vec Ideal S2048 .f32 := iblk m c 8 t

/-- The layer's parameters as the region finds them. -/
def Pk (c : Dev nD) : Params :=
  params (arr1 m c) (arr2 m c) (arr3 m c) (arr4 m c) (arr5 m c) (arr6 m c) (arr7 m c) (arr8 m c)

/-- The layer applied to every frame of the input array as the region finds it. -/
def Gk (c : Dev nD) : S512x16x2048.Idx → EReal := G (N := 512) (Pk m c) (arr0 m c)

/-! ## Where the windows' blocks sit -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the input's and the result's block index is the point on the frame
    axis and zero on the others; the parameter windows stay at block zero. -/
theorem idx_facts : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Frame `a` of point `t`'s block, as a frame of the whole array. -/
def fr (t : Fin cfg0.N) (a : Fin 8) : Fin 512 :=
  ⟨t.val * 8 + a.val, by have ht : t.val < 64 := lt_of_lt_of_eq t.isLt N_0; have := a.isLt; omega⟩

/-- An element of point `t`'s input block sits in frame `8t + a` of the array. -/
theorem emb0_eq (t : Fin cfg0.N) (a : Fin 8) (p : Fin 16) (k : Fin 2048) :
    ((cfg0.win 0).blk t).view.emb (ix3 a p k) = ix3 (fr t a) p k := by
  obtain ⟨e0, e1, e2, -⟩ := idx_facts t
  funext ax; apply Fin.ext
  match ax with
  | ⟨0, _⟩ => show win0_0.index t (0 : Fin 3) * 8 + 1 * a.val = t.val * 8 + a.val; rw [e0]; omega
  | ⟨1, _⟩ => show win0_0.index t (1 : Fin 3) * 16 + 1 * p.val = p.val; rw [e1]; omega
  | ⟨2, _⟩ => show win0_0.index t (2 : Fin 3) * 2048 + 1 * k.val = k.val; rw [e2]; omega

/-- …and an element of its result block likewise. -/
theorem emb9_eq (t : Fin cfg0.N) (a : Fin 8) (p : Fin 16) (k : Fin 2048) :
    ((cfg0.win 9).blk t).view.emb (ix3 a p k) = ix3 (fr t a) p k := by
  obtain ⟨-, -, -, e0, e1, e2, -⟩ := idx_facts t
  funext ax; apply Fin.ext
  match ax with
  | ⟨0, _⟩ => show win0_9.index t (0 : Fin 3) * 8 + 1 * a.val = t.val * 8 + a.val; rw [e0]; omega
  | ⟨1, _⟩ => show win0_9.index t (1 : Fin 3) * 16 + 1 * p.val = p.val; rw [e1]; omega
  | ⟨2, _⟩ => show win0_9.index t (2 : Fin 3) * 2048 + 1 * k.val = k.val; rw [e2]; omega

/-- The input block at point `t` is frames `8t …` of the input array. -/
theorem blk0_read (c : Dev nD) (t : Fin cfg0.N) (a : Fin 8) (p : Fin 16) (k : Fin 2048) :
    blk0 m c t (ix3 a p k) = arr0 m c (ix3 (fr t a) p k) := by
  show V m c main_v0 (((cfg0.win 0).blk t).view.emb (ix3 a p k)) = V m c main_v0 (ix3 (fr t a) p k)
  rw [emb0_eq]

/-- A parameter matrix's block is the whole matrix, at every point. -/
theorem blk1_eq (c : Dev nD) (t : Fin cfg0.N) : blk1 m c t = arr1 m c := by
  obtain ⟨-, -, -, -, -, -, e0, e1, -⟩ := idx_facts t
  funext y
  show V m c main_v1 (((cfg0.win 1).blk t).view.emb y) = V m c main_v1 y
  have he : ((cfg0.win 1).blk t).view.emb y = y := by
    funext ax; apply Fin.ext
    match ax with
    | ⟨0, _⟩ => show win0_1.index t (0 : Fin 2) * 2048 + 1 * (y 0).val = (y 0).val; rw [e0]; omega
    | ⟨1, _⟩ => show win0_1.index t (1 : Fin 2) * 2048 + 1 * (y 1).val = (y 1).val; rw [e1]; omega
  rw [he]

theorem blk3_eq (c : Dev nD) (t : Fin cfg0.N) : blk3 m c t = arr3 m c := by
  obtain ⟨-, -, -, -, -, -, -, -, -, e0, e1, -⟩ := idx_facts t
  funext y
  show V m c main_v2 (((cfg0.win 3).blk t).view.emb y) = V m c main_v2 y
  have he : ((cfg0.win 3).blk t).view.emb y = y := by
    funext ax; apply Fin.ext
    match ax with
    | ⟨0, _⟩ => show win0_3.index t (0 : Fin 2) * 2048 + 1 * (y 0).val = (y 0).val; rw [e0]; omega
    | ⟨1, _⟩ => show win0_3.index t (1 : Fin 2) * 2048 + 1 * (y 1).val = (y 1).val; rw [e1]; omega
  rw [he]

theorem blk7_eq (c : Dev nD) (t : Fin cfg0.N) : blk7 m c t = arr7 m c := by
  obtain ⟨-, -, -, -, -, -, -, -, -, -, -, -, -, -, e0, e1, -⟩ := idx_facts t
  funext y
  show V m c main_v3 (((cfg0.win 7).blk t).view.emb y) = V m c main_v3 y
  have he : ((cfg0.win 7).blk t).view.emb y = y := by
    funext ax; apply Fin.ext
    match ax with
    | ⟨0, _⟩ => show win0_7.index t (0 : Fin 2) * 2048 + 1 * (y 0).val = (y 0).val; rw [e0]; omega
    | ⟨1, _⟩ => show win0_7.index t (1 : Fin 2) * 2048 + 1 * (y 1).val = (y 1).val; rw [e1]; omega
  rw [he]

/-- A parameter row's block is the whole row, at every point. -/
theorem blk2_eq (c : Dev nD) (t : Fin cfg0.N) : blk2 m c t = arr2 m c := by
  obtain ⟨-, -, -, -, -, -, -, -, e0, -⟩ := idx_facts t
  funext y
  show V m c main_arg2 (((cfg0.win 2).blk t).view.emb y) = V m c main_arg2 y
  have he : ((cfg0.win 2).blk t).view.emb y = y := by
    funext ax; apply Fin.ext
    match ax with
    | ⟨0, _⟩ => show win0_2.index t (0 : Fin 1) * 2048 + 1 * (y 0).val = (y 0).val; rw [e0]; omega
  rw [he]

theorem blk4_eq (c : Dev nD) (t : Fin cfg0.N) : blk4 m c t = arr4 m c := by
  obtain ⟨-, -, -, -, -, -, -, -, -, -, -, e0, -⟩ := idx_facts t
  funext y
  show V m c main_arg4 (((cfg0.win 4).blk t).view.emb y) = V m c main_arg4 y
  have he : ((cfg0.win 4).blk t).view.emb y = y := by
    funext ax; apply Fin.ext
    match ax with
    | ⟨0, _⟩ => show win0_4.index t (0 : Fin 1) * 2048 + 1 * (y 0).val = (y 0).val; rw [e0]; omega
  rw [he]

theorem blk5_eq (c : Dev nD) (t : Fin cfg0.N) : blk5 m c t = arr5 m c := by
  obtain ⟨-, -, -, -, -, -, -, -, -, -, -, -, e0, -⟩ := idx_facts t
  funext y
  show V m c main_arg5 (((cfg0.win 5).blk t).view.emb y) = V m c main_arg5 y
  have he : ((cfg0.win 5).blk t).view.emb y = y := by
    funext ax; apply Fin.ext
    match ax with
    | ⟨0, _⟩ => show win0_5.index t (0 : Fin 1) * 2048 + 1 * (y 0).val = (y 0).val; rw [e0]; omega
  rw [he]

theorem blk6_eq (c : Dev nD) (t : Fin cfg0.N) : blk6 m c t = arr6 m c := by
  obtain ⟨-, -, -, -, -, -, -, -, -, -, -, -, -, e0, -⟩ := idx_facts t
  funext y
  show V m c main_arg6 (((cfg0.win 6).blk t).view.emb y) = V m c main_arg6 y
  have he : ((cfg0.win 6).blk t).view.emb y = y := by
    funext ax; apply Fin.ext
    match ax with
    | ⟨0, _⟩ => show win0_6.index t (0 : Fin 1) * 2048 + 1 * (y 0).val = (y 0).val; rw [e0]; omega
  rw [he]

theorem blk8_eq (c : Dev nD) (t : Fin cfg0.N) : blk8 m c t = arr8 m c := by
  obtain ⟨-, -, -, -, -, -, -, -, -, -, -, -, -, -, -, -, e0⟩ := idx_facts t
  funext y
  show V m c main_arg8 (((cfg0.win 8).blk t).view.emb y) = V m c main_arg8 y
  have he : ((cfg0.win 8).blk t).view.emb y = y := by
    funext ax; apply Fin.ext
    match ax with
    | ⟨0, _⟩ => show win0_8.index t (0 : Fin 1) * 2048 + 1 * (y 0).val = (y 0).val; rw [e0]; omega
  rw [he]

/-! ## What a point writes back, and the array after the run -/

/-- WHAT POINT `t` WRITES BACK is block `t` of the layer applied to the whole input array. -/
theorem flushed_eq (c : Dev nD) (t : Fin cfg0.N) :
    (dats m 0 c).flushed 9 t = ((cfg0.win 9).blk t).view.read (Elt Ideal) (Gk m c) := by
  show (cfg0.win 9).cut (grid0.coords t) ((dats m 0 c).after 9 t) = _
  rw [after0_9]
  unfold out0_9
  rw [View.canon_unit_zero hz3]
  simp only [View.ld_unit_zero (S := S8x16x2048) hz3, View.ld_unit_zero (S := S2048x2048) hz2,
    View.ld_unit_zero (S := S2048) hz1]
  funext j
  obtain ⟨a, p, d, rfl⟩ : ∃ (a : Fin 8) (p : Fin 16) (d : Fin 2048), j = ix3 a p d := ⟨j 0, j 1, j 2, eq_ix3 j⟩
  show k0_pay1 (F := Ideal) (k0_pay4 (blk0 m c t) (blk1 m c t) (blk2 m c t) (blk3 m c t) (blk4 m c t))
      (k0_pay5 (blk0 m c t) (blk1 m c t) (blk2 m c t) (blk3 m c t) (blk4 m c t)) (k0_pay6 (F := Ideal))
      (blk5 m c t) (blk6 m c t) (blk7 m c t) (blk8 m c t) (ix3 a p d)
    = Gk m c (((cfg0.win 9).blk t).view.emb (ix3 a p d))
  rw [Block.block_eq, emb9_eq, blk1_eq, blk2_eq, blk3_eq, blk4_eq, blk5_eq, blk6_eq, blk7_eq, blk8_eq]
  exact G_block (Pk m c) (arr0 m c) (blk0 m c t) (fr t a) a (fun p' c' => blk0_read m c t a p' c') p d

/-- An index of the result array is in point `t`'s block iff each coordinate is in the block's range on its axis. -/
theorem mem_blk (t : Fin cfg0.N) (i : S512x16x2048.Idx) :
    i ∈ ((cfg0.win 9).blk t).view.set ↔ ∀ a : Fin 3, win0_9.index t a * S8x16x2048.size a ≤ (i a).val
      ∧ (i a).val < win0_9.index t a * S8x16x2048.size a + S8x16x2048.size a := by
  show i ∈ ((View.whole main_v4).slice (win0_9.rect t)).set ↔ _
  rw [View.set_slice_whole, Rect.mem_set_unit]
  exact Iff.rfl

/-- Frame `n` of the result is written back by point `n / 8`: the blocks cover the array. -/
theorem cover (i : S512x16x2048.Idx) :
    ∃ t : Fin cfg0.N, (cfg0.win 9).flush t = true ∧ i ∈ ((cfg0.win 9).blk t).view.set := by
  have hi0 : (i 0).val < 512 := (i 0).isLt
  have hi1 : (i 1).val < 16 := (i 1).isLt
  have hi2 : (i 2).val < 2048 := (i 2).isLt
  have hN : (i 0).val / 8 < cfg0.N := lt_of_lt_of_eq (by omega : (i 0).val / 8 < 64) N_0.symm
  refine ⟨⟨(i 0).val / 8, hN⟩, flush0_9 _, ?_⟩
  obtain ⟨-, -, -, e0, e1, e2, -⟩ := idx_facts ⟨(i 0).val / 8, hN⟩
  rw [mem_blk]
  intro a
  match a with
  | ⟨0, _⟩ =>
    show win0_9.index ⟨(i 0).val / 8, hN⟩ (0 : Fin 3) * 8 ≤ (i 0).val
      ∧ (i 0).val < win0_9.index ⟨(i 0).val / 8, hN⟩ (0 : Fin 3) * 8 + 8
    rw [e0]; show (i 0).val / 8 * 8 ≤ (i 0).val ∧ (i 0).val < (i 0).val / 8 * 8 + 8; omega
  | ⟨1, _⟩ =>
    show win0_9.index ⟨(i 0).val / 8, hN⟩ (1 : Fin 3) * 16 ≤ (i 1).val
      ∧ (i 1).val < win0_9.index ⟨(i 0).val / 8, hN⟩ (1 : Fin 3) * 16 + 16
    rw [e1]; omega
  | ⟨2, _⟩ =>
    show win0_9.index ⟨(i 0).val / 8, hN⟩ (2 : Fin 3) * 2048 ≤ (i 2).val
      ∧ (i 2).val < win0_9.index ⟨(i 0).val / 8, hN⟩ (2 : Fin 3) * 2048 + 2048
    rw [e2]; omega

/-- THE RESULT ARRAY after the run: the layer applied to every frame of the input array. -/
theorem final (c : Dev nD) : (dats m 0 c).arrAt 9 cfg0.N = Gk m c :=
  (dats m 0 c).arrAt_eq_of_cover 9 (Gk m c) (fun t _ => flushed_eq m c t) cover

/-! ## The host operations around the region -/

/-- The region's input array is the argument reshaped to 512 frames. -/
theorem arr0_eq (c : Dev nD) : arr0 m c
    = shapeCast S512x16x2048 (m ((c : Thread nD τ).loc main_arg0)) shapeCasts_S32x16x16x2048_S512x16x2048 := by
  show StableHlo.after hostOps0 (fun b => m (c, b)) (Proc.devRef .tc main_v0) = _
  after_results
  rfl

/-- A weight matrix through the change of float format is, over the extended reals, the matrix. -/
theorem arr1_eq (c : Dev nD) : arr1 m c = m ((c : Thread nD τ).loc main_arg1) := by
  show StableHlo.after hostOps0 (fun b => m (c, b)) (Proc.devRef .tc main_v1) = _
  after_results
  rfl

theorem arr3_eq (c : Dev nD) : arr3 m c = m ((c : Thread nD τ).loc main_arg3) := by
  show StableHlo.after hostOps0 (fun b => m (c, b)) (Proc.devRef .tc main_v2) = _
  after_results
  rfl

theorem arr7_eq (c : Dev nD) : arr7 m c = m ((c : Thread nD τ).loc main_arg7) := by
  show StableHlo.after hostOps0 (fun b => m (c, b)) (Proc.devRef .tc main_v3) = _
  after_results
  rfl

/-- The result the program returns: the one host operation after the region reshapes the result array. -/
theorem tail_eq (c : Dev nD) :
    Pipeline.afterTail₀ cfgs (dats m) 0 (V0 m) [hostOps1] c main_v5
      = shapeCast S32x16x16x2048 (Gk m c) shapeCasts_S512x16x2048_S32x16x16x2048 := by
  unfold Pipeline.afterTail₀
  show StableHlo.after hostOps1 _ (Proc.devRef .tc main_v5) = _
  after_results
  exact congrArg (fun y => shapeCast S32x16x16x2048 y shapeCasts_S512x16x2048_S32x16x16x2048)
    ((Pipeline.withArrays_arr spec0 winFacts0.arr_inj c _ _ 9).trans (final m c))

/-- The layer applied to the region's arrays is the layer applied to the arguments. -/
theorem Gk_eq (c : Dev nD) : Gk m c
    = G (N := 512) (params (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)))
      (shapeCast S512x16x2048 (m ((c : Thread nD τ).loc main_arg0)) shapeCasts_S32x16x16x2048_S512x16x2048) := by
  unfold Gk Pk
  rw [arr0_eq, arr1_eq, arr3_eq, arr7_eq]
  rw [show arr2 m c = m ((c : Thread nD τ).loc main_arg2) from V_main_arg2 m c,
    show arr4 m c = m ((c : Thread nD τ).loc main_arg4) from V_main_arg4 m c,
    show arr5 m c = m ((c : Thread nD τ).loc main_arg5) from V_main_arg5 m c,
    show arr6 m c = m ((c : Thread nD τ).loc main_arg6) from V_main_arg6 m c,
    show arr8 m c = m ((c : Thread nD τ).loc main_arg8) from V_main_arg8 m c]

/-! ## The run, read -/

/-- Every weakly fair execution of the kernel's program terminates with its result at the reshaped layer of the
    arguments, and the arguments unchanged. (The arguments' part reads the frame run's post as the frame does.) -/
theorem run : θ_run defs (onTc (τ := τ) (main (F := Ideal))) ⟨m, fun _ => 0, ρ⟩ fun r => ∀ c : Dev nD,
      r.2.mem ((c : Thread nD τ).loc main_v5)
        = shapeCast S32x16x16x2048 (Gk m c) shapeCasts_S512x16x2048_S32x16x16x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c)))⟩)
    (run_main m ρ)

end Cert.Gcn.Kern

end
-- ==== Proof.lean ====
/-
  A fused graph-convolution layer over 512 frames of 16 parts and 2048 channels, as one pipelined kernel over blocks of
  8 frames, against its plain reference, over the extended reals.

  For each frame the layer takes the mean of the frame's parts through a linear map and a logistic to an attention
  gate, gates the frame, applies a linear layer, normalises each channel by the frame's own mean and biased variance
  over its parts (with a guard ε under the inverse square root), scales and shifts, rectifies, and applies a second
  linear layer (Proof/Spec.lean, `frameOut`). No frame reads another.

  Both programs compute that function frame by frame: the kernel on each block of 8 frames (Proof/Block.lean), its
  blocks tiling the `[512, 16, 2048]` array (Proof/Kern.lean); the reference on all 512 frames at once (Proof/Ref.lean).
  Between the two no law of arithmetic is needed beyond reading each matrix product and each sum over the parts as a
  finite sum, the kernel's logistic as the reference's `1 / (1 + e^(−z))`, and the kernel's changes of float format as
  the identity, all of which hold on every extended real. So the results agree at every input, and the precondition is
  never opened.

  The three frame claims are the programs' runs with the results dropped. The ideal pass rewrote nothing, so the
  idealization claim is `True`.
-/
import proofs.«139088_j91130616087328_1_alg».proof.Defs
import proofs.«139088_j91130616087328_1_alg».proof.Proof.Gen.Kernel
import proofs.«139088_j91130616087328_1_alg».proof.Proof.Gen.Kernel.Skeleton
import proofs.«139088_j91130616087328_1_alg».proof.Proof.Gen.Kernel.Launch
import proofs.«139088_j91130616087328_1_alg».proof.Proof.Gen.Kernel.Points
import proofs.«139088_j91130616087328_1_alg».proof.Proof.Gen.Kernel.Frame
import proofs.«139088_j91130616087328_1_alg».proof.Proof.Gen.KernelIdeal
import proofs.«139088_j91130616087328_1_alg».proof.Proof.Gen.KernelIdeal.Skeleton
import proofs.«139088_j91130616087328_1_alg».proof.Proof.Gen.KernelIdeal.Launch
import proofs.«139088_j91130616087328_1_alg».proof.Proof.Gen.KernelIdeal.Points
import proofs.«139088_j91130616087328_1_alg».proof.Proof.Gen.KernelIdeal.Frame
import proofs.«139088_j91130616087328_1_alg».proof.Proof.Gen.ReferenceIdeal
import proofs.«139088_j91130616087328_1_alg».proof.Proof.Gen.ReferenceIdeal.Run
import proofs.«139088_j91130616087328_1_alg».proof.Proof.Gen.ReferenceIdeal.Read
import proofs.«139088_j91130616087328_1_alg».proof.Proof.Gen.Pre_finite_inputs
import proofs.«139088_j91130616087328_1_alg».proof.Proof.Ref
import proofs.«139088_j91130616087328_1_alg».proof.Proof.Kern
import Idealize.ShloMosaic.Adequacy
import Idealize.ShloMosaic.Init

noncomputable section

namespace Cert.Proof

open Idealize.ShloMosaic Idealize.SL.Sem

/-- The word-level kernel terminates without a fault and keeps its arguments: its frame run. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories agreeing on the arguments, the kernel ends with the reshaped layer of its arguments (its run) and the
    reference with the reshape of its last stage (its run), which is the layer of its arguments (`stage_eq`): the same
    array, the reference's first reshape being the one that feeds the kernel's region. -/
theorem algebraic : Cert.algebraic_KernelIdeal_ReferenceIdeal := by
  intro m ρ m' ρ' _ hagree
  refine ⟨_, Cert.Gcn.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v50_eq]
  unfold Cert.ReferenceIdeal.Read.val_main_v50
  rw [Cert.Gcn.Ref.stage_eq, Cert.Gcn.Kern.Gk_eq, h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
